-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x64 .f32) (main_arg3 : FVec F S64 .f32) (main_arg4 : FVec F S64x8 .f32) (main_arg5 : FVec F S8 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x32 : Shape := ⟨2, ![5000, 32]⟩
abbrev S5000x64 : Shape := ⟨2, ![5000, 64]⟩
abbrev S1700000x64 : Shape := ⟨2, ![1700000, 64]⟩
abbrev S1x64 : Shape := ⟨2, ![1, 64]⟩
abbrev S100000x8 : Shape := ⟨2, ![100000, 8]⟩
abbrev S5000x8 : Shape := ⟨2, ![5000, 8]⟩
abbrev S1700000x8 : Shape := ⟨2, ![1700000, 8]⟩
abbrev S1x8 : Shape := ⟨2, ![1, 8]⟩

abbrev nBuf : Space → Nat
  | .hbm => 88
  | .vmem => 10
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x8, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x8, .f32⟩
  | .hbm, ⟨78, _⟩ => ⟨S1700000x1, .f32⟩
  | .hbm, ⟨79, _⟩ => ⟨S1700000x8, .f32⟩
  | .hbm, ⟨80, _⟩ => ⟨S1700000x8, .f32⟩
  | .hbm, ⟨81, _⟩ => ⟨S_, .f32⟩
  | .hbm, ⟨82, _⟩ => ⟨S100000x8, .f32⟩
  | .hbm, ⟨83, _⟩ => ⟨S1700000x1, .i32⟩
  | .hbm, ⟨84, _⟩ => ⟨S100000x8, .f32⟩
  | .hbm, ⟨85, _⟩ => ⟨S1x8, .f32⟩
  | .hbm, ⟨86, _⟩ => ⟨S100000x8, .f32⟩
  | .hbm, ⟨87, _⟩ => ⟨S100000x8, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x8, .f32⟩
  | .local _ .vmem, ⟨8, _⟩ => ⟨S5000x8, .f32⟩
  | .local _ .vmem, ⟨9, _⟩ => ⟨S5000x8, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x8_S64x8_0_0 : ∀ a, (![0, 0] : Fin 2 → Nat) a + S64x8.size a ≤ S64x8.size a
  h_S64x8 : 0 < S64x8.numel
  inb_S5000x8_S5000x8_0_0 : ∀ a, (![0, 0] : Fin 2 → Nat) a + S5000x8.size a ≤ S5000x8.size a
  h_S5000x8 : 0 < S5000x8.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x32_S32x64_S5000x64_1_0_0_1_n_n_wf : DotDims.WF S5000x32 S32x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x8_S5000x8_1_0_0_1_n_n_wf : DotDims.WF S5000x64 S64x8 S5000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8.size a ≤ S64x8.size a
  hwx1_1 : ∀ i : grid1.Coords, EltTy.bits .f32 = 32 ∨ (Rect.block (s := S64x8) S64x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S100000x8.size a
  hwx1_2 : ∀ i : grid1.Coords, EltTy.bits .f32 = 32 ∨ (Rect.block (s := S100000x8) S5000x8.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x8 : Shape := ⟨2, ![100000, 8]⟩
abbrev S1700000x8 : Shape := ⟨2, ![1700000, 8]⟩
abbrev S1x8 : Shape := ⟨2, ![1, 8]⟩

abbrev nBuf : Space → Nat
  | .hbm => 123
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x8, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000, .f32⟩
  | .hbm, ⟨103, _⟩ => ⟨S1700000, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x8, .f32⟩
  | .hbm, ⟨113, _⟩ => ⟨S1700000x1, .f32⟩
  | .hbm, ⟨114, _⟩ => ⟨S1700000x8, .f32⟩
  | .hbm, ⟨115, _⟩ => ⟨S1700000x8, .f32⟩
  | .hbm, ⟨116, _⟩ => ⟨S_, .f32⟩
  | .hbm, ⟨117, _⟩ => ⟨S100000x8, .f32⟩
  | .hbm, ⟨118, _⟩ => ⟨S1700000x1, .i32⟩
  | .hbm, ⟨119, _⟩ => ⟨S100000x8, .f32⟩
  | .hbm, ⟨120, _⟩ => ⟨S1x8, .f32⟩
  | .hbm, ⟨121, _⟩ => ⟨S100000x8, .f32⟩
  | .hbm, ⟨122, _⟩ => ⟨S100000x8, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_call1_v0 : Ref sig .tc := ⟨.hbm, 82, rfl⟩
abbrev main_call1_v1 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_c_16 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_17 : Ref sig .tc := ⟨.hbm, 94, rfl⟩
abbrev main_v65 : Ref sig .tc := ⟨.hbm, 95, rfl⟩
abbrev main_v66 : Ref sig .tc := ⟨.hbm, 96, rfl⟩
abbrev main_c_18 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_c_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_21 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x32_S32x64_S100000x64_1_0_0_1_n_n_wf : DotDims.WF S100000x32 S32x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x8_S100000x8_1_0_0_1_n_n_wf : DotDims.WF S100000x64 S64x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.Layer1Product.lean ====
/-
  The first layer's dense product, as one array.

  The first pallas_call tiles the rows of `x` (100000 × 32) into 20 blocks of 5000 rows; at each grid point it
  multiplies its block of rows by the whole of `W1` (32 × 64) and stores the 5000 × 64 result as the matching block of
  rows of the output. At the ideal instance the two truncations to bf16 are the identity and the matrix unit's product
  into a zero accumulator is the plain sum over the contracted index, so the stored element at (r, q) of a block is
  `∑ k, xblock (r, k) · W1 (k, q)`. Row `r` of block `t` is row `5000 · t + r` of the array, so every block is the
  restriction of ONE whole-array function, `rowsTimes x W1 (i, q) = ∑ k, x (i, k) · W1 (k, q)`, and the 20 blocks cover
  all 100000 rows: the output array ends holding `rowsTimes x W1`.
-/
import proofs.«157205_j83073257439789_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

/-- Rows times a matrix: the (i, q) entry is the sum over the 32 shared coordinates. -/
def rowsTimes (x : FVec Ideal S100000x32 .f32) (w : FVec Ideal S32x64 .f32) : FVec Ideal S100000x64 .f32 :=
  fun i => ∑ k : Fin 32, x (ix2 (i 0) k) * w (ix2 k (i 1))

/-! ## One block's product, read at an entry -/

abbrev blockDot := dot_S5000x32_S32x64_S5000x64_1_0_0_1_n_n

theorem lhs_row (j : S5000x64.Idx) (q : blockDot.contr.Idx) : (blockDot.lhsIdx j q 0).val = (j 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl
theorem lhs_shared (j : S5000x64.Idx) (q : blockDot.contr.Idx) : (blockDot.lhsIdx j q 1).val = (q ⟨0, by decide⟩).val :=
  dot_S5000x32_S32x64_S5000x64_1_0_0_1_n_n.lhsIdx_val_of_single rfl j q
theorem rhs_shared (j : S5000x64.Idx) (q : blockDot.contr.Idx) : (blockDot.rhsIdx j q 0).val = (q ⟨0, by decide⟩).val :=
  dot_S5000x32_S32x64_S5000x64_1_0_0_1_n_n.rhsIdx_val_of_single rfl j q
theorem rhs_col (j : S5000x64.Idx) (q : blockDot.contr.Idx) : (blockDot.rhsIdx j q 1).val = (j 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- What the body stores, at an entry of the block: the sum over the shared coordinate of the loaded block of rows
    times the loaded matrix (the truncations are the identity, the accumulator is zero). -/
theorem stored_apply (x0 : Vec Ideal S5000x32 .f32) (x1 : Vec Ideal S32x64 .f32) (j : S5000x64.Idx) :
    k0_pay1 (F := Ideal) x0 x1 j = ∑ k : Fin 32, x0 (ix2 (j 0) k) * x1 (ix2 k (j 1)) := by
  show matmul dot_S5000x32_S32x64_S5000x64_1_0_0_1_n_n none (truncf .bf16 x0 bitsLt_bf16_f32) (truncf .bf16 x1 bitsLt_bf16_f32)
    (constant (F := Ideal) S5000x64 .f32 0x00000000#32) j = _
  simp only [matmul]
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx j ((contrEquiv1 dot_S5000x32_S32x64_S5000x64_1_0_0_1_n_n 32 rfl rfl).symm k) = ix2 (j 0) k :=
    funext fun a => Fin.ext (by
      match a with
      | ⟨0, _⟩ => exact lhs_row _ _
      | ⟨1, _⟩ => exact (lhs_shared _ _).trans hk)
  have er : dot_S5000x32_S32x64_S5000x64_1_0_0_1_n_n.rhsIdx j ((contrEquiv1 dot_S5000x32_S32x64_S5000x64_1_0_0_1_n_n 32 rfl rfl).symm k) = ix2 k (j 1) :=
    funext fun a => Fin.ext (by
      match a with
      | ⟨0, _⟩ => exact (rhs_shared _ _).trans hk
      | ⟨1, _⟩ => exact rhs_col _ _)
  rw [truncf_apply, truncf_apply, el, er]
  rfl

/-! ## From the blocks to the array -/

variable (V : (c : Dev nD) → (b : Ref sig .tc) → Buf (Elt Ideal) ((c : Thread nD τ).loc b))

/-- The two arrays the region reads, as it finds them, at their literal types. -/
abbrev rowsArr (c : Dev nD) : FVec Ideal S100000x32 .f32 := V c main_arg0
abbrev matArr (c : Dev nD) : FVec Ideal S32x64 .f32 := V c main_arg2

theorem zeroOffsets : (![0, 0] : Fin 2 → Nat) = fun _ => 0 := funext fun a => by fin_cases a <;> rfl

/-- The printed index maps over the 20 grid points: the rows window and the output window sit at block-row `t`,
    every other block coordinate is 0. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the whole-array product of the arrays the region finds. -/
theorem flushed_eq (c : Dev nD) (t : Fin cfg0.N) :
    (dat0 V c).flushed 2 t = ((cfg0.win 2).blk t).view.read (Elt Ideal) (rowsTimes (rowsArr V c) (matArr V c)) := by
  show (cfg0.win 2).cut (grid0.coords t) ((dat0 V c).after 2 t) = _
  rw [after0_2]
  unfold out0_2
  rw [View.canon_unit_zero zeroOffsets]
  simp only [View.ld_unit_zero (S := S5000x32) zeroOffsets, View.ld_unit_zero (S := S32x64) zeroOffsets]
  obtain ⟨e0, e1, e2, e3, e4, e5⟩ := blockIndices t
  funext j
  refine (stored_apply (iblk0 V c 0 t) (iblk0 V c 1 t) j).trans ?_
  show _ = rowsTimes (rowsArr V c) (matArr V c) (((cfg0.win 2).blk t).view.emb j)
  unfold rowsTimes
  refine Finset.sum_congr rfl fun k _ => ?_
  have hj0 : (j 0).val < 5000 := (j 0).isLt
  have hj1 : (j 1).val < 64 := (j 1).isLt
  have hx : iblk0 V c 0 t (ix2 (j 0) k) = rowsArr V c (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 32 + 1 * k.val = k.val; omega
  have hw : iblk0 V c 1 t (ix2 k (j 1)) = matArr V c (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 32 + 1 * k.val = k.val; omega
    | ⟨1, _⟩ => show win0_1.index t (1 : Fin 2) * 64 + 1 * (j 1).val = win0_2.index t (1 : Fin 2) * 64 + 1 * (j 1).val; omega
  rw [hx, hw]

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row `i` lies in the block of rows number `i / 5000`: the blocks cover the array. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := blockIndices t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the whole-array product of the two input arrays as the region found them. -/
theorem array_eq (c : Dev nD) : (dat0 V c).arrAt 2 cfg0.N = rowsTimes (rowsArr V c) (matArr V c) :=
  (dat0 V c).arrAt_eq_of_cover 2 _ (fun t _ => flushed_eq V c t) covered

end Cert.KernelIdeal.Layer1

end
-- ==== Proof.Layer2Product.lean ====
/-
  The second layer's dense product, as one array.

  The second pallas_call does for the hidden activations what the first did for the features: the rows of the
  100000 × 64 array the host left (the first layer's aggregate plus its bias) are tiled into 20 blocks of 5000 rows, and
  at each grid point the block is multiplied by the whole of `W2` (64 × 8). The body reshapes its loaded block to the
  shape it already has (the identity), truncates to bf16 (the identity at the ideal instance) and multiplies into a zero
  accumulator, so the stored element at (r, q) is `∑ k, hblock (r, k) · W2 (k, q)` over the 64 shared coordinates. Row
  `r` of block `t` is row `5000 · t + r` of the array; every block restricts ONE whole-array function,
  `rowsTimes h W2 (i, q) = ∑ k, h (i, k) · W2 (k, q)`, and the blocks cover the rows: the output array ends holding it.
-/
import proofs.«157205_j83073257439789_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)

/-- Rows times a matrix: the (i, q) entry is the sum over the 64 shared coordinates. -/
def rowsTimes (h : FVec Ideal S100000x64 .f32) (w : FVec Ideal S64x8 .f32) : FVec Ideal S100000x8 .f32 :=
  fun i => ∑ k : Fin 64, h (ix2 (i 0) k) * w (ix2 k (i 1))

/-! ## One block's product, read at an entry -/

abbrev blockDot := dot_S5000x64_S64x8_S5000x8_1_0_0_1_n_n

theorem lhs_row (j : S5000x8.Idx) (q : blockDot.contr.Idx) : (blockDot.lhsIdx j q 0).val = (j 0).val := by
  unfold DotDims.lhsIdx
  rw [dif_neg (show ¬(0 : Fin S5000x64.rank) ∈ dot_S5000x64_S64x8_S5000x8_1_0_0_1_n_n.lhsBatch by decide),
    dif_pos (show (0 : Fin S5000x64.rank) ∈ dot_S5000x64_S64x8_S5000x8_1_0_0_1_n_n.lhsNonContracting by decide)]
  rfl
theorem lhs_shared (j : S5000x8.Idx) (q : blockDot.contr.Idx) : (blockDot.lhsIdx j q 1).val = (q ⟨0, by decide⟩).val :=
  dot_S5000x64_S64x8_S5000x8_1_0_0_1_n_n.lhsIdx_val_of_single rfl j q
theorem rhs_shared (j : S5000x8.Idx) (q : blockDot.contr.Idx) : (blockDot.rhsIdx j q 0).val = (q ⟨0, by decide⟩).val :=
  dot_S5000x64_S64x8_S5000x8_1_0_0_1_n_n.rhsIdx_val_of_single rfl j q
theorem rhs_col (j : S5000x8.Idx) (q : blockDot.contr.Idx) : (blockDot.rhsIdx j q 1).val = (j 1).val := by
  unfold DotDims.rhsIdx
  rw [dif_neg (show ¬(1 : Fin S64x8.rank) ∈ dot_S5000x64_S64x8_S5000x8_1_0_0_1_n_n.rhsBatch by decide),
    dif_pos (show (1 : Fin S64x8.rank) ∈ dot_S5000x64_S64x8_S5000x8_1_0_0_1_n_n.rhsNonContracting by decide)]
  rfl

/-- What the body stores, at an entry of the block: the sum over the shared coordinate of the loaded block of rows
    times the loaded matrix (the reshape and the truncations are the identity, the accumulator is zero). -/
theorem stored_apply (x0 : Vec Ideal S5000x64 .f32) (x1 : Vec Ideal S64x8 .f32) (j : S5000x8.Idx) :
    k1_pay1 (F := Ideal) x0 x1 j = ∑ k : Fin 64, x0 (ix2 (j 0) k) * x1 (ix2 k (j 1)) := by
  show matmul dot_S5000x64_S64x8_S5000x8_1_0_0_1_n_n none
    (truncf .bf16 (shapeCast S5000x64 x0 shapeCasts_S5000x64_S5000x64) bitsLt_bf16_f32) (truncf .bf16 x1 bitsLt_bf16_f32)
    (constant (F := Ideal) S5000x8 .f32 0x00000000#32) j = _
  rw [shapeCast_self]
  simp only [matmul]
  rw [Ideal.matmul_constant_zero_apply, ← Equiv.sum_comp (contrEquiv1 dot_S5000x64_S64x8_S5000x8_1_0_0_1_n_n 64 rfl rfl).symm]
  refine Finset.sum_congr rfl fun k _ => ?_
  have hk := contrEquiv1_symm_val dot_S5000x64_S64x8_S5000x8_1_0_0_1_n_n 64 rfl rfl k
  have el : dot_S5000x64_S64x8_S5000x8_1_0_0_1_n_n.lhsIdx j ((contrEquiv1 dot_S5000x64_S64x8_S5000x8_1_0_0_1_n_n 64 rfl rfl).symm k) = ix2 (j 0) k :=
    funext fun a => Fin.ext (by
      match a with
      | ⟨0, _⟩ => exact lhs_row _ _
      | ⟨1, _⟩ => exact (lhs_shared _ _).trans hk)
  have er : dot_S5000x64_S64x8_S5000x8_1_0_0_1_n_n.rhsIdx j ((contrEquiv1 dot_S5000x64_S64x8_S5000x8_1_0_0_1_n_n 64 rfl rfl).symm k) = ix2 k (j 1) :=
    funext fun a => Fin.ext (by
      match a with
      | ⟨0, _⟩ => exact (rhs_shared _ _).trans hk
      | ⟨1, _⟩ => exact rhs_col _ _)
  rw [truncf_apply, truncf_apply, el, er]
  rfl

/-! ## From the blocks to the array -/

variable (V : (c : Dev nD) → (b : Ref sig .tc) → Buf (Elt Ideal) ((c : Thread nD τ).loc b))

/-- The two arrays the region reads, as it finds them, at their literal types. -/
abbrev rowsArr (c : Dev nD) : FVec Ideal S100000x64 .f32 := V c main_v47
abbrev matArr (c : Dev nD) : FVec Ideal S64x8 .f32 := V c main_arg4

theorem zeroOffsets : (![0, 0] : Fin 2 → Nat) = fun _ => 0 := funext fun a => by fin_cases a <;> rfl

/-- The printed index maps over the 20 grid points: the rows window and the output window sit at block-row `t`,
    every other block coordinate is 0. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the whole-array product of the arrays the region finds. -/
theorem flushed_eq (c : Dev nD) (t : Fin cfg1.N) :
    (dat1 V c).flushed 2 t = ((cfg1.win 2).blk t).view.read (Elt Ideal) (rowsTimes (rowsArr V c) (matArr V c)) := by
  show (cfg1.win 2).cut (grid1.coords t) ((dat1 V c).after 2 t) = _
  rw [after1_2]
  unfold out1_2
  rw [View.canon_unit_zero zeroOffsets]
  simp only [View.ld_unit_zero (S := S5000x64) zeroOffsets, View.ld_unit_zero (S := S64x8) zeroOffsets]
  obtain ⟨e0, e1, e2, e3, e4, e5⟩ := blockIndices t
  funext j
  refine (stored_apply (iblk1 V c 0 t) (iblk1 V c 1 t) j).trans ?_
  show _ = rowsTimes (rowsArr V c) (matArr V c) (((cfg1.win 2).blk t).view.emb j)
  unfold rowsTimes
  refine Finset.sum_congr rfl fun k _ => ?_
  have hj0 : (j 0).val < 5000 := (j 0).isLt
  have hj1 : (j 1).val < 8 := (j 1).isLt
  have hx : iblk1 V c 0 t (ix2 (j 0) k) = rowsArr V c (ix2 ((((cfg1.win 2).blk t).view.emb j) 0) k) := by
    show V c main_v47 (((cfg1.win 0).blk t).view.emb (ix2 (j 0) k)) = _
    refine congrArg (V c main_v47) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have hw : iblk1 V c 1 t (ix2 k (j 1)) = matArr V c (ix2 k ((((cfg1.win 2).blk t).view.emb j) 1)) := by
    show V c main_arg4 (((cfg1.win 1).blk t).view.emb (ix2 k (j 1))) = _
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 8 + 1 * (j 1).val = win1_2.index t (1 : Fin 2) * 8 + 1 * (j 1).val; omega
  rw [hx, hw]

/-- An index of the output array is in point `t`'s block iff each coordinate is in the block's range on its axis. -/
theorem mem_block (t : Fin cfg1.N) (i : S100000x8.Idx) :
    i ∈ ((cfg1.win 2).blk t).view.set ↔ ∀ a : Fin 2, win1_2.index t a * S5000x8.size a ≤ (i a).val ∧ (i a).val < win1_2.index t a * S5000x8.size a + S5000x8.size a := by
  show i ∈ ((View.whole main_v48).slice (win1_2.rect t)).set ↔ _
  rw [View.set_slice_whole, Rect.mem_set_unit]
  exact Iff.rfl

/-- Row `i` lies in the block of rows number `i / 5000`: the blocks cover the array. -/
theorem covered (i : S100000x8.Idx) : ∃ t : Fin cfg1.N, (cfg1.win 2).flush t = true ∧ i ∈ ((cfg1.win 2).blk t).view.set := by
  have hi0 : (i 0).val < 100000 := (i 0).isLt
  have hi1 : (i 1).val < 8 := (i 1).isLt
  have hN : cfg1.N = 20 := N_1
  let t : Fin cfg1.N := ⟨(i 0).val / 5000, by rw [hN]; omega⟩
  obtain ⟨e0, e1, e2, e3, e4, e5⟩ := blockIndices t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 8 ≤ (i 1).val ∧ (i 1).val < win1_2.index t (1 : Fin 2) * 8 + 8; omega

/-- The output array after the region: the whole-array product of the two input arrays as the region found them. -/
theorem array_eq (c : Dev nD) : (dat1 V c).arrAt 2 cfg1.N = rowsTimes (rowsArr V c) (matArr V c) :=
  (dat1 V c).arrAt_eq_of_cover 2 _ (fun t _ => flushed_eq V c t) covered

end Cert.KernelIdeal.Layer2

end
-- ==== Proof.GraphLayer.lean ====
/-
  The graph convolution both programs share, as pure functions of arrays.

  Both programs extend the edge list by the 100000 self loops (`sources`, `targets`: row 0, resp. row 1, of the edge
  array followed by 0, 1, …, 99999), wrap a negative node index once by the node count before a gather (`wrapped`:
  jnp's indexing convention), count each node's incoming edges by scattering ones (`degree`), take the inverse square
  root of the positive degrees and 0 elsewhere (`invSqrt`), and give every edge the product of that at its two ends
  (`edgeNorm`). One layer then gathers its `src` rows of a dense product `h`, scales every gathered row by its edge's
  norm, scatter-adds the rows at their targets into zeros and adds the bias row (`aggregate64` for the hidden width 64,
  `aggregate8` for the 8 classes). `network P1 P2` is two such layers around two dense products `P1`, `P2`, left as
  parameters: the reference takes the host's `dot_general` for both, the kernel's two pallas_calls will be shown to
  compute the same two products, and nothing in between is ever opened.

  All of it is generic in the float family; the compared and scattered constants name the family explicitly because
  nothing else in those terms does.
-/
import proofs.«157205_j83073257439789_1_alg».proof.Proof.Gen.ReferenceIdeal

noncomputable section

namespace Cert.Graph

open Cert.ReferenceIdeal Cert.ReferenceIdeal.Gen Idealize.ShloMosaic Idealize.SL.Sem

variable {F : FTy → Type} [FloatOps F]

/-- An array of shape `s` and element type `e` at the float family `F`. -/
abbrev Arr (F : FTy → Type) (s : Shape) (e : EltTy) : Type := (⟨s, e⟩ : BufTy).Contents (Elt F)

/-- The edges' source nodes followed by the self loops 0 … 99999. -/
def sources (ei : Arr F S2x1600000 .i32) : Arr F S1700000 .i32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' target nodes followed by the self loops 0 … 99999. -/
def targets (ei : Arr F S2x1600000 .i32) : Arr F S1700000 .i32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative node index counts from the end: add the node count once. -/
def wrapped (v : Arr F S1700000 .i32) : Arr F S1700000 .i32 :=
  select (cmpi .slt v (broadcastInDim S1700000 ![] bcast_S_S1700000 (constantI S_ 32 0#32))) (addi v (broadcastInDim S1700000 ![] bcast_S_S1700000 (constantI S_ 32 100000#32))) v

/-- Each node's number of incoming edges (self loop included): ones scattered at the targets into zeros. -/
def degree (dst : Arr F S1700000 .i32) : Arr F S100000 .f32 :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 dst) (broadcastInDim S1700000 ![] bcast_S_S1700000 (constant (F := F) S_ .f32 0x3F800000#32))

/-- `deg ^ (-1/2)` where the degree is positive, 0 elsewhere. -/
def invSqrt (deg : Arr F S100000 .f32) : Arr F S100000 .f32 :=
  select (cmpf (F := F) .ogt deg (broadcastInDim S100000 ![] bcast_S_S100000 (constant (F := F) S_ .f32 0x00000000#32))) (Host.powf deg (broadcastInDim S100000 ![] bcast_S_S100000 (constant (F := F) S_ .f32 0xBF000000#32))) (broadcastInDim S100000 ![] bcast_S_S100000 (id (constant (F := F) S_ .f32 0x00000000#32)))

/-- The symmetric normalisation of an edge: the inverse square roots of the degrees at its two ends, multiplied. -/
def edgeNorm (src dst : Arr F S1700000 .i32) : Arr F S1700000 .f32 :=
  mulf (Host.gather gather_S100000_S1700000x1_S1700000_n_0_n_n_0_1_1 (invSqrt (degree (F := F) dst)) (broadcastInDim S1700000x1 ![0] bcast_S1700000_S1700000x1_0 (wrapped (F := F) src))) (Host.gather gather_S100000_S1700000x1_S1700000_n_0_n_n_0_1_1 (invSqrt (degree (F := F) dst)) (broadcastInDim S1700000x1 ![0] bcast_S1700000_S1700000x1_0 (wrapped (F := F) dst)))

/-- One layer's aggregation at width 64: gather the source rows of `h`, scale each by its edge's norm, scatter-add at
    the targets into zeros, add the bias row. -/
def aggregate64 (h : Arr F S100000x64 .f32) (src dst : Arr F S1700000 .i32) (nrm : Arr F S1700000 .f32) (b : Arr F S64 .f32) : Arr F S100000x64 .f32 :=
  addf (Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (wrapped (F := F) src))) (broadcastInDim S1700000x64 ![0, 1] bcast_S1700000x1_S1700000x64_0_1 (broadcastInDim S1700000x1 ![0] bcast_S1700000_S1700000x1_0 nrm)))) (broadcastInDim S100000x64 ![0, 1] bcast_S1x64_S100000x64_0_1 (broadcastInDim S1x64 ![1] bcast_S64_S1x64_1 b))

/-- The same at width 8. -/
def aggregate8 (h : Arr F S100000x8 .f32) (src dst : Arr F S1700000 .i32) (nrm : Arr F S1700000 .f32) (b : Arr F S8 .f32) : Arr F S100000x8 .f32 :=
  addf (Host.scatterAdd scatter_S100000x8_S1700000x1_S1700000x8_1_0_0_1 (broadcastInDim S100000x8 ![] bcast_S_S100000x8 (constant (F := F) S_ .f32 0x00000000#32)) (broadcastInDim S1700000x1 ![0] bcast_S1700000_S1700000x1_0 dst) (mulf (Host.gather gather_S100000x8_S1700000x1_S1700000x8_1_0_n_n_0_1_18 h (broadcastInDim S1700000x1 ![0] bcast_S1700000_S1700000x1_0 (wrapped (F := F) src))) (broadcastInDim S1700000x8 ![0, 1] bcast_S1700000x1_S1700000x8_0_1 (broadcastInDim S1700000x1 ![0] bcast_S1700000_S1700000x1_0 nrm)))) (broadcastInDim S100000x8 ![0, 1] bcast_S1x8_S100000x8_0_1 (broadcastInDim S1x8 ![1] bcast_S8_S1x8_1 b))

/-- Two layers around two dense products `P1` (features to hidden) and `P2` (hidden to classes). -/
def network (P1 : Arr F S100000x32 .f32 → Arr F S32x64 .f32 → Arr F S100000x64 .f32)
    (P2 : Arr F S100000x64 .f32 → Arr F S64x8 .f32 → Arr F S100000x8 .f32)
    (x : Arr F S100000x32 .f32) (ei : Arr F S2x1600000 .i32) (w1 : Arr F S32x64 .f32) (b1 : Arr F S64 .f32)
    (w2 : Arr F S64x8 .f32) (b2 : Arr F S8 .f32) : Arr F S100000x8 .f32 :=
  aggregate8 (P2 (aggregate64 (P1 x w1) (sources (F := F) ei) (targets (F := F) ei) (edgeNorm (sources (F := F) ei) (targets (F := F) ei)) b1) w2)
    (sources (F := F) ei) (targets (F := F) ei) (edgeNorm (sources (F := F) ei) (targets (F := F) ei)) b2

end Cert.Graph

end
-- ==== Proof.KernelWalk.lean ====
/-
  The kernel program's result buffer, read back to the arguments.

  @main of the kernel program is three stretches of host operations, the first pallas_call, a stretch, the second
  pallas_call, and a last stretch. The generated frame names the buffer contents at every boundary (`W0` … `W7`), each a
  fold of the stretch's operations over the contents before it, a region's output array standing at what its write-backs
  leave. Here the last boundary's contents at the result buffer are walked back:

    * the last stretch is one layer's aggregation (width 8) of the second region's output array, over the edge lists and
      the edge norm the first stretches computed and nothing since has written;
    * the second region's output array is the dense product of the array the middle stretch left with `W2`;
    * the middle stretch is one layer's aggregation (width 64) of the first region's output array;
    * the first region's output array is the dense product of `x` with `W1`;
    * the first three stretches compute the edge lists with self loops and the symmetric edge norm from the edge array.

  Each stretch is read once, for any contents before it and any float family, as the shared graph functions applied to
  the contents it reads; the boundaries are then joined. The result is the two-layer network around the kernel's two
  whole-array products.
-/
import proofs.«157205_j83073257439789_1_alg».proof.Proof.Gen.KernelIdeal.Frame
import proofs.«157205_j83073257439789_1_alg».proof.Proof.Layer1Product
import proofs.«157205_j83073257439789_1_alg».proof.Proof.Layer2Product
import proofs.«157205_j83073257439789_1_alg».proof.Proof.GraphLayer
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-! ## Each stretch, for any contents before it -/

section Stretches

variable {F : FTy → Type} [FloatOps F] (W : Valuation τ sig (Elt F))

/-- The three stretches before the first region leave the source list with self loops in `main_v3`, -/
theorem entry_sources :
    after (hostOps0_2 (F := F)) (after hostOps0_1 (after hostOps0 W)) (Proc.devRef .tc main_v3)
      = Graph.sources (F := F) (W (Proc.devRef .tc main_arg1)) := by
  after_results
  rfl
/-- the target list with self loops in `main_v6`, -/
theorem entry_targets :
    after (hostOps0_2 (F := F)) (after hostOps0_1 (after hostOps0 W)) (Proc.devRef .tc main_v6)
      = Graph.targets (F := F) (W (Proc.devRef .tc main_arg1)) := by
  after_results
  rfl
set_option maxHeartbeats 8000000 in
/-- and the symmetric edge norm in `main_v30`. -/
theorem entry_norm :
    after (hostOps0_2 (F := F)) (after hostOps0_1 (after hostOps0 W)) (Proc.devRef .tc main_v30)
      = Graph.edgeNorm (F := F) (Graph.sources (F := F) (W (Proc.devRef .tc main_arg1))) (Graph.targets (F := F) (W (Proc.devRef .tc main_arg1))) := by
  after_results
  rfl

/-- They write no argument. -/
theorem entry_arg0 : after (hostOps0_2 (F := F)) (after hostOps0_1 (after hostOps0 W)) (Proc.devRef .tc main_arg0) = W (Proc.devRef .tc main_arg0) := by
  after_results
theorem entry_arg2 : after (hostOps0_2 (F := F)) (after hostOps0_1 (after hostOps0 W)) (Proc.devRef .tc main_arg2) = W (Proc.devRef .tc main_arg2) := by
  after_results
theorem entry_arg3 : after (hostOps0_2 (F := F)) (after hostOps0_1 (after hostOps0 W)) (Proc.devRef .tc main_arg3) = W (Proc.devRef .tc main_arg3) := by
  after_results
theorem entry_arg4 : after (hostOps0_2 (F := F)) (after hostOps0_1 (after hostOps0 W)) (Proc.devRef .tc main_arg4) = W (Proc.devRef .tc main_arg4) := by
  after_results
theorem entry_arg5 : after (hostOps0_2 (F := F)) (after hostOps0_1 (after hostOps0 W)) (Proc.devRef .tc main_arg5) = W (Proc.devRef .tc main_arg5) := by
  after_results

set_option maxHeartbeats 8000000 in
/-- The stretch between the regions is the first layer's aggregation of whatever `main_v31` holds, -/
theorem middle_hidden :
    after (hostOps1 (F := F)) W (Proc.devRef .tc main_v47)
      = Graph.aggregate64 (F := F) (W (Proc.devRef .tc main_v31)) (W (Proc.devRef .tc main_v3)) (W (Proc.devRef .tc main_v6))
          (W (Proc.devRef .tc main_v30)) (W (Proc.devRef .tc main_arg3)) := by
  after_results_simp
  rfl
/-- and writes neither the edge lists, nor the norm, nor an argument. -/
theorem middle_v3 : after (hostOps1 (F := F)) W (Proc.devRef .tc main_v3) = W (Proc.devRef .tc main_v3) := by
  after_results
theorem middle_v6 : after (hostOps1 (F := F)) W (Proc.devRef .tc main_v6) = W (Proc.devRef .tc main_v6) := by
  after_results
theorem middle_v30 : after (hostOps1 (F := F)) W (Proc.devRef .tc main_v30) = W (Proc.devRef .tc main_v30) := by
  after_results
theorem middle_arg4 : after (hostOps1 (F := F)) W (Proc.devRef .tc main_arg4) = W (Proc.devRef .tc main_arg4) := by
  after_results
theorem middle_arg5 : after (hostOps1 (F := F)) W (Proc.devRef .tc main_arg5) = W (Proc.devRef .tc main_arg5) := by
  after_results

set_option maxHeartbeats 8000000 in
/-- The last stretch is the second layer's aggregation of whatever `main_v48` holds. -/
theorem last_result :
    after (hostOps2 (F := F)) W (Proc.devRef .tc main_v64)
      = Graph.aggregate8 (F := F) (W (Proc.devRef .tc main_v48)) (W (Proc.devRef .tc main_v3)) (W (Proc.devRef .tc main_v6))
          (W (Proc.devRef .tc main_v30)) (W (Proc.devRef .tc main_arg5)) := by
  after_results_simp
  rfl

end Stretches

/-! ## The boundaries joined, at the ideal instance -/

variable (m : (ℓ : Loc nD τ sig) → Buf (Elt Ideal) ℓ) (ρ : Dev nD → PrngReg)

/-- The launch contents at a buffer are the launch memory's. -/
theorem launch_at (c : Dev nD) (b : Ref sig .tc) : W0 m ρ c (Proc.devRef .tc b) = m ((c : Thread nD τ).loc b) := rfl

/-- At the first region's entry: the edge lists, the norm, and the arguments as launched. -/
theorem sources3 (c : Dev nD) : W3 m ρ c (Proc.devRef .tc main_v3) = Graph.sources (F := Ideal) (m ((c : Thread nD τ).loc main_arg1)) :=
  entry_sources (W0 m ρ c)
theorem targets3 (c : Dev nD) : W3 m ρ c (Proc.devRef .tc main_v6) = Graph.targets (F := Ideal) (m ((c : Thread nD τ).loc main_arg1)) :=
  entry_targets (W0 m ρ c)
theorem norm3 (c : Dev nD) : W3 m ρ c (Proc.devRef .tc main_v30)
    = Graph.edgeNorm (F := Ideal) (Graph.sources (F := Ideal) (m ((c : Thread nD τ).loc main_arg1))) (Graph.targets (F := Ideal) (m ((c : Thread nD τ).loc main_arg1))) :=
  entry_norm (W0 m ρ c)
theorem arg0_3 (c : Dev nD) : W3 m ρ c (Proc.devRef .tc main_arg0) = m ((c : Thread nD τ).loc main_arg0) := entry_arg0 (W0 m ρ c)
theorem arg2_3 (c : Dev nD) : W3 m ρ c (Proc.devRef .tc main_arg2) = m ((c : Thread nD τ).loc main_arg2) := entry_arg2 (W0 m ρ c)
theorem arg3_3 (c : Dev nD) : W3 m ρ c (Proc.devRef .tc main_arg3) = m ((c : Thread nD τ).loc main_arg3) := entry_arg3 (W0 m ρ c)
theorem arg4_3 (c : Dev nD) : W3 m ρ c (Proc.devRef .tc main_arg4) = m ((c : Thread nD τ).loc main_arg4) := entry_arg4 (W0 m ρ c)
theorem arg5_3 (c : Dev nD) : W3 m ρ c (Proc.devRef .tc main_arg5) = m ((c : Thread nD τ).loc main_arg5) := entry_arg5 (W0 m ρ c)

/-- The first region's output array is the product of `x` and `W1` as launched. -/
theorem product1 (c : Dev nD) : W4 m ρ c (Proc.devRef .tc main_v31)
    = Layer1.rowsTimes (m ((c : Thread nD τ).loc main_arg0)) (m ((c : Thread nD τ).loc main_arg2)) := by
  refine (W4_arr m ρ c 2).trans ?_
  rw [Layer1.array_eq (V3 m ρ) c]
  show Layer1.rowsTimes (W3 m ρ c (Proc.devRef .tc main_arg0)) (W3 m ρ c (Proc.devRef .tc main_arg2)) = _
  rw [arg0_3, arg2_3]

/-- The array the second region multiplies: the first layer's aggregate of that product. -/
theorem hidden5 (c : Dev nD) : W5 m ρ c (Proc.devRef .tc main_v47)
    = Graph.aggregate64 (F := Ideal) (Layer1.rowsTimes (m ((c : Thread nD τ).loc main_arg0)) (m ((c : Thread nD τ).loc main_arg2)))
        (Graph.sources (F := Ideal) (m ((c : Thread nD τ).loc main_arg1))) (Graph.targets (F := Ideal) (m ((c : Thread nD τ).loc main_arg1)))
        (Graph.edgeNorm (F := Ideal) (Graph.sources (F := Ideal) (m ((c : Thread nD τ).loc main_arg1))) (Graph.targets (F := Ideal) (m ((c : Thread nD τ).loc main_arg1))))
        (m ((c : Thread nD τ).loc main_arg3)) := by
  refine (middle_hidden (W4 m ρ c)).trans ?_
  rw [product1, W4_of_ne m ρ c main_v3 (by decide), W4_of_ne m ρ c main_v6 (by decide), W4_of_ne m ρ c main_v30 (by decide),
    W4_of_ne m ρ c main_arg3 (by decide), sources3, targets3, norm3, arg3_3]

theorem arg4_5 (c : Dev nD) : W5 m ρ c (Proc.devRef .tc main_arg4) = m ((c : Thread nD τ).loc main_arg4) :=
  (middle_arg4 (W4 m ρ c)).trans ((W4_of_ne m ρ c main_arg4 (by decide)).trans (arg4_3 m ρ c))

/-- The second region's output array is the product of that hidden array and `W2`. -/
theorem product2 (c : Dev nD) : W6 m ρ c (Proc.devRef .tc main_v48)
    = Layer2.rowsTimes (W5 m ρ c (Proc.devRef .tc main_v47)) (m ((c : Thread nD τ).loc main_arg4)) := by
  refine (W6_arr m ρ c 2).trans ?_
  rw [Layer2.array_eq (V5 m ρ) c]
  show Layer2.rowsTimes (W5 m ρ c (Proc.devRef .tc main_v47)) (W5 m ρ c (Proc.devRef .tc main_arg4)) = _
  rw [arg4_5]

/-- What the second region does not write, at its exit. -/
theorem sources6 (c : Dev nD) : W6 m ρ c (Proc.devRef .tc main_v3) = Graph.sources (F := Ideal) (m ((c : Thread nD τ).loc main_arg1)) :=
  (W6_of_ne m ρ c main_v3 (by decide)).trans ((middle_v3 (W4 m ρ c)).trans ((W4_of_ne m ρ c main_v3 (by decide)).trans (sources3 m ρ c)))
theorem targets6 (c : Dev nD) : W6 m ρ c (Proc.devRef .tc main_v6) = Graph.targets (F := Ideal) (m ((c : Thread nD τ).loc main_arg1)) :=
  (W6_of_ne m ρ c main_v6 (by decide)).trans ((middle_v6 (W4 m ρ c)).trans ((W4_of_ne m ρ c main_v6 (by decide)).trans (targets3 m ρ c)))
theorem norm6 (c : Dev nD) : W6 m ρ c (Proc.devRef .tc main_v30)
    = Graph.edgeNorm (F := Ideal) (Graph.sources (F := Ideal) (m ((c : Thread nD τ).loc main_arg1))) (Graph.targets (F := Ideal) (m ((c : Thread nD τ).loc main_arg1))) :=
  (W6_of_ne m ρ c main_v30 (by decide)).trans ((middle_v30 (W4 m ρ c)).trans ((W4_of_ne m ρ c main_v30 (by decide)).trans (norm3 m ρ c)))
theorem arg5_6 (c : Dev nD) : W6 m ρ c (Proc.devRef .tc main_arg5) = m ((c : Thread nD τ).loc main_arg5) :=
  (W6_of_ne m ρ c main_arg5 (by decide)).trans ((middle_arg5 (W4 m ρ c)).trans ((W4_of_ne m ρ c main_arg5 (by decide)).trans (arg5_3 m ρ c)))

/-- THE RESULT BUFFER at the last boundary: the two-layer network around the kernel's two whole-array products, of the
    arguments as launched. -/
theorem result_eq (c : Dev nD) : W7 m ρ c (Proc.devRef .tc main_v64)
    = Graph.network (F := Ideal) Layer1.rowsTimes Layer2.rowsTimes
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (last_result (W6 m ρ c)).trans ?_
  rw [product2, hidden5, sources6, targets6, norm6, arg5_6]
  rfl

end Cert.KernelIdeal.Walk

end
-- ==== Proof.ReferenceProducts.lean ====
/-
  The reference's result is the same network, around the host's two `dot_general`s — and those are the kernel's products.

  The reference's run states its result as one composed term of the arguments. Unfolding the shared graph functions
  shows that term to be `Graph.network` with the host's `dot_general` (contracting axis 1 of the left operand with
  axis 0 of the right) for both dense products: the reference writes the degree normalisation out a second time for its
  second layer, with the same operations on the same edge array, so the two copies are one term.

  At the ideal instance a `dot_general` with one contracted axis is the plain sum over the shared coordinate of the
  products of the operands' entries: entry (i, q) of `x · W` is `∑ k, x (i, k) · W (k, q)`. That is, entry by entry, the
  whole-array product the kernel's pallas_calls were shown to leave (`Layer1.rowsTimes`, `Layer2.rowsTimes`) — no
  reassociation and no distributivity is involved, so the identity holds on all extended reals.
-/
import proofs.«157205_j83073257439789_1_alg».proof.Proof.ReferenceRun
import proofs.«157205_j83073257439789_1_alg».proof.Proof.GraphLayer
import proofs.«157205_j83073257439789_1_alg».proof.Proof.Layer1Product
import proofs.«157205_j83073257439789_1_alg».proof.Proof.Layer2Product
import Idealize.ShloMosaic.Lib.ValueIdx
import Idealize.ShloMosaic.PureOps.Ideal.Laws

set_option maxRecDepth 16384

noncomputable section

namespace Cert.ReferenceIdeal.Products

open Cert.ReferenceIdeal Cert.ReferenceIdeal.Gen
open Idealize.ShloMosaic Idealize.ShloMosaic.TcCoe Idealize.SL.Sem Idealize.ShloMosaic.ValueIdx

/-! ## The host's two dense products -/

section Generic
variable {F : FTy → Type} [FloatOps F]

/-- Features to hidden: `x · W1` on the host. -/
def hostProduct1 (l : Graph.Arr F S100000x32 .f32) (r : Graph.Arr F S32x64 .f32) : Graph.Arr F S100000x64 .f32 :=
  Host.dotGeneral dot_S100000x32_S32x64_S100000x64_1_0_0_1_n_n none l r
/-- Hidden to classes: `h · W2` on the host. -/
def hostProduct2 (l : Graph.Arr F S100000x64 .f32) (r : Graph.Arr F S64x8 .f32) : Graph.Arr F S100000x8 .f32 :=
  Host.dotGeneral dot_S100000x64_S64x8_S100000x8_1_0_0_1_n_n none l r

/-- The reference run's result term is the two-layer network around the host's two products, of the arguments. -/
theorem result_is_network (m : (ℓ : Loc nD τ sig) → Buf (Elt F) ℓ) (c : Dev nD) :
    ValueP.res_main_v88 (F := F) m c
      = Graph.network (F := F) hostProduct1 hostProduct2
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold ValueP.res_main_v88 Graph.network Graph.aggregate8 Graph.aggregate64 Graph.edgeNorm Graph.invSqrt Graph.degree Graph.wrapped
    Graph.sources Graph.targets hostProduct1 hostProduct2
  rfl

end Generic

/-! ## A `dot_general` read at an entry, at the ideal instance -/

theorem lhs1_row (i : S100000x64.Idx) (q : dot_S100000x32_S32x64_S100000x64_1_0_0_1_n_n.contr.Idx) :
    (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch by decide),
    dif_pos (show (0 : Fin S100000x32.rank) ∈ dot_S100000x32_S32x64_S100000x64_1_0_0_1_n_n.lhsNonContracting by decide)]
  rfl
theorem lhs1_shared (i : S100000x64.Idx) (q : dot_S100000x32_S32x64_S100000x64_1_0_0_1_n_n.contr.Idx) :
    (dot_S100000x32_S32x64_S100000x64_1_0_0_1_n_n.lhsIdx i q 1).val = (q ⟨0, by decide⟩).val :=
  dot_S100000x32_S32x64_S100000x64_1_0_0_1_n_n.lhsIdx_val_of_single rfl i q
theorem rhs1_shared (i : S100000x64.Idx) (q : dot_S100000x32_S32x64_S100000x64_1_0_0_1_n_n.contr.Idx) :
    (dot_S100000x32_S32x64_S100000x64_1_0_0_1_n_n.rhsIdx i q 0).val = (q ⟨0, by decide⟩).val :=
  dot_S100000x32_S32x64_S100000x64_1_0_0_1_n_n.rhsIdx_val_of_single rfl i q
theorem rhs1_col (i : S100000x64.Idx) (q : dot_S100000x32_S32x64_S100000x64_1_0_0_1_n_n.contr.Idx) :
    (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch by decide),
    dif_pos (show (1 : Fin S32x64.rank) ∈ dot_S100000x32_S32x64_S100000x64_1_0_0_1_n_n.rhsNonContracting by decide)]
  rfl

/-- Entry (i, q) of the host's `x · W1`: the sum over the 32 shared coordinates. -/
theorem hostProduct1_apply (x : FVec Ideal S100000x32 .f32) (w : FVec Ideal S32x64 .f32) (i : S100000x64.Idx) :
    hostProduct1 (F := Ideal) x w i = ∑ k : Fin 32, x (ix2 (i 0) k) * w (ix2 k (i 1)) := by
  unfold hostProduct1
  simp only [Host.dotGeneral]
  rw [Ideal.dotGeneral_apply, ← Equiv.sum_comp (contrEquiv1 dot_S100000x32_S32x64_S100000x64_1_0_0_1_n_n 32 rfl rfl).symm]
  refine Finset.sum_congr rfl fun k _ => ?_
  have hk := contrEquiv1_symm_val dot_S100000x32_S32x64_S100000x64_1_0_0_1_n_n 32 rfl rfl k
  have el : dot_S100000x32_S32x64_S100000x64_1_0_0_1_n_n.lhsIdx i ((contrEquiv1 dot_S100000x32_S32x64_S100000x64_1_0_0_1_n_n 32 rfl rfl).symm k) = ix2 (i 0) k :=
    funext fun a => Fin.ext (by
      match a with
      | ⟨0, _⟩ => exact lhs1_row _ _
      | ⟨1, _⟩ => exact (lhs1_shared _ _).trans hk)
  have er : dot_S100000x32_S32x64_S100000x64_1_0_0_1_n_n.rhsIdx i ((contrEquiv1 dot_S100000x32_S32x64_S100000x64_1_0_0_1_n_n 32 rfl rfl).symm k) = ix2 k (i 1) :=
    funext fun a => Fin.ext (by
      match a with
      | ⟨0, _⟩ => exact (rhs1_shared _ _).trans hk
      | ⟨1, _⟩ => exact rhs1_col _ _)
  rw [el, er]
  rfl

theorem lhs2_row (i : S100000x8.Idx) (q : dot_S100000x64_S64x8_S100000x8_1_0_0_1_n_n.contr.Idx) :
    (dot_S100000x64_S64x8_S100000x8_1_0_0_1_n_n.lhsIdx i q 0).val = (i 0).val := by
  unfold DotDims.lhsIdx
  rw [dif_neg (show ¬(0 : Fin S100000x64.rank) ∈ dot_S100000x64_S64x8_S100000x8_1_0_0_1_n_n.lhsBatch by decide),
    dif_pos (show (0 : Fin S100000x64.rank) ∈ dot_S100000x64_S64x8_S100000x8_1_0_0_1_n_n.lhsNonContracting by decide)]
  rfl
theorem lhs2_shared (i : S100000x8.Idx) (q : dot_S100000x64_S64x8_S100000x8_1_0_0_1_n_n.contr.Idx) :
    (dot_S100000x64_S64x8_S100000x8_1_0_0_1_n_n.lhsIdx i q 1).val = (q ⟨0, by decide⟩).val :=
  dot_S100000x64_S64x8_S100000x8_1_0_0_1_n_n.lhsIdx_val_of_single rfl i q
theorem rhs2_shared (i : S100000x8.Idx) (q : dot_S100000x64_S64x8_S100000x8_1_0_0_1_n_n.contr.Idx) :
    (dot_S100000x64_S64x8_S100000x8_1_0_0_1_n_n.rhsIdx i q 0).val = (q ⟨0, by decide⟩).val :=
  dot_S100000x64_S64x8_S100000x8_1_0_0_1_n_n.rhsIdx_val_of_single rfl i q
theorem rhs2_col (i : S100000x8.Idx) (q : dot_S100000x64_S64x8_S100000x8_1_0_0_1_n_n.contr.Idx) :
    (dot_S100000x64_S64x8_S100000x8_1_0_0_1_n_n.rhsIdx i q 1).val = (i 1).val := by
  unfold DotDims.rhsIdx
  rw [dif_neg (show ¬(1 : Fin S64x8.rank) ∈ dot_S100000x64_S64x8_S100000x8_1_0_0_1_n_n.rhsBatch by decide),
    dif_pos (show (1 : Fin S64x8.rank) ∈ dot_S100000x64_S64x8_S100000x8_1_0_0_1_n_n.rhsNonContracting by decide)]
  rfl

/-- Entry (i, q) of the host's `h · W2`: the sum over the 64 shared coordinates. -/
theorem hostProduct2_apply (x : FVec Ideal S100000x64 .f32) (w : FVec Ideal S64x8 .f32) (i : S100000x8.Idx) :
    hostProduct2 (F := Ideal) x w i = ∑ k : Fin 64, x (ix2 (i 0) k) * w (ix2 k (i 1)) := by
  unfold hostProduct2
  simp only [Host.dotGeneral]
  rw [Ideal.dotGeneral_apply, ← Equiv.sum_comp (contrEquiv1 dot_S100000x64_S64x8_S100000x8_1_0_0_1_n_n 64 rfl rfl).symm]
  refine Finset.sum_congr rfl fun k _ => ?_
  have hk := contrEquiv1_symm_val dot_S100000x64_S64x8_S100000x8_1_0_0_1_n_n 64 rfl rfl k
  have el : dot_S100000x64_S64x8_S100000x8_1_0_0_1_n_n.lhsIdx i ((contrEquiv1 dot_S100000x64_S64x8_S100000x8_1_0_0_1_n_n 64 rfl rfl).symm k) = ix2 (i 0) k :=
    funext fun a => Fin.ext (by
      match a with
      | ⟨0, _⟩ => exact lhs2_row _ _
      | ⟨1, _⟩ => exact (lhs2_shared _ _).trans hk)
  have er : dot_S100000x64_S64x8_S100000x8_1_0_0_1_n_n.rhsIdx i ((contrEquiv1 dot_S100000x64_S64x8_S100000x8_1_0_0_1_n_n 64 rfl rfl).symm k) = ix2 k (i 1) :=
    funext fun a => Fin.ext (by
      match a with
      | ⟨0, _⟩ => exact (rhs2_shared _ _).trans hk
      | ⟨1, _⟩ => exact rhs2_col _ _)
  rw [el, er]
  rfl

/-! ## The host's products are the kernel's -/

/-- The host's `x · W1` is the array the first pallas_call leaves. -/
theorem hostProduct1_eq : hostProduct1 (F := Ideal) = Cert.KernelIdeal.Layer1.rowsTimes :=
  funext fun x => funext fun w => funext fun i => hostProduct1_apply x w i
/-- The host's `h · W2` is the array the second pallas_call leaves. -/
theorem hostProduct2_eq : hostProduct2 (F := Ideal) = Cert.KernelIdeal.Layer2.rowsTimes :=
  funext fun x => funext fun w => funext fun i => hostProduct2_apply x w i

end Cert.ReferenceIdeal.Products

end
-- ==== Proof.lean ====
/-
  A two-layer graph convolution: the kernel program against its jnp reference, over the extended reals.

  Both programs add the 100000 self loops to the edge list, compute each node's degree and the symmetric edge
  normalisation `deg(src)^(-1/2) · deg(dst)^(-1/2)`, and run two layers `out = scatter_add (gather (h, src) · norm) at dst + b`
  with `h = input · W`. They differ in one thing only: the reference computes each dense product `input · W` with one
  host `dot_general`, the kernel program with a pallas_call that tiles the rows into 20 blocks of 5000, casts both
  operands to bf16 and multiplies each block on the matrix unit into a zero accumulator. At the ideal instance a change of
  float format is the identity and both products are, entry by entry, the same finite sum `∑ k, input (i, k) · W (k, q)`:
  only commutative, associative addition of the same terms is involved, so nothing needs the inputs to be finite.

  The proof: each pallas_call's output array is the whole-array product of its inputs (Layer1Product, Layer2Product: the
  blocks restrict one function and cover the rows); the kernel program's result buffer, read back stretch by stretch
  through its host operations, is the two-layer network around those two products (KernelWalk, over the launch re-posted
  with the result buffer in KernelResultRun); the reference's result is the same network around the host's
  `dot_general`s, which are those products (ReferenceProducts, over ReferenceRun); the shared host computation is
  carried as the functions of GraphLayer and never opened. The three frames are the generated ones; the ideal pass
  rewrote nothing, so `preserves` has nothing to state.
-/
import proofs.«157205_j83073257439789_1_alg».proof.Defs
import proofs.«157205_j83073257439789_1_alg».proof.Proof.Gen.Kernel
import proofs.«157205_j83073257439789_1_alg».proof.Proof.Gen.Kernel.Skeleton
import proofs.«157205_j83073257439789_1_alg».proof.Proof.Gen.Kernel.Launch
import proofs.«157205_j83073257439789_1_alg».proof.Proof.Gen.Kernel.Points
import proofs.«157205_j83073257439789_1_alg».proof.Proof.Gen.Kernel.Frame
import proofs.«157205_j83073257439789_1_alg».proof.Proof.Gen.KernelIdeal
import proofs.«157205_j83073257439789_1_alg».proof.Proof.Gen.KernelIdeal.Skeleton
import proofs.«157205_j83073257439789_1_alg».proof.Proof.Gen.KernelIdeal.Launch
import proofs.«157205_j83073257439789_1_alg».proof.Proof.Gen.KernelIdeal.Points
import proofs.«157205_j83073257439789_1_alg».proof.Proof.Gen.KernelIdeal.Frame
import proofs.«157205_j83073257439789_1_alg».proof.Proof.Gen.ReferenceIdeal
import proofs.«157205_j83073257439789_1_alg».proof.Proof.Gen.Pre_finite_inputs
import proofs.«157205_j83073257439789_1_alg».proof.Proof.KernelResultRun
import proofs.«157205_j83073257439789_1_alg».proof.Proof.KernelWalk
import proofs.«157205_j83073257439789_1_alg».proof.Proof.ReferenceRun
import proofs.«157205_j83073257439789_1_alg».proof.Proof.ReferenceProducts
import Idealize.ShloMosaic.Adequacy
import Idealize.ShloMosaic.Init

noncomputable section

namespace Cert.Proof

open Idealize.ShloMosaic Idealize.ShloMosaic.TcCoe Idealize.SL.Sem

/-- The word-level kernel program runs, faults nowhere and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the two-layer network around the same two dense products, of arguments that
    agree: the kernel program by its walk, the reference by its run's term and the reading of a `dot_general`. -/
theorem algebraic : Cert.algebraic_KernelIdeal_ReferenceIdeal := by
  intro m ρ m' ρ' _ hagree
  refine ⟨fun c => Cert.Graph.network (F := Ideal) Cert.KernelIdeal.Layer1.rowsTimes Cert.KernelIdeal.Layer2.rowsTimes
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result_eq m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Products.result_is_network, Cert.ReferenceIdeal.Products.hostProduct1_eq,
      Cert.ReferenceIdeal.Products.hostProduct2_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
